-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x3 : Shape := ⟨3, ![32, 1024, 3]⟩
abbrev S_ : Shape := ⟨0, ![]⟩

class Facts : Prop where
  bcast_S_S32x1024x3 : S_.BroadcastsInDim S32x1024x3 (![] : Fin 0 → Fin S32x1024x3.rank)
  reducesTo_S32x1024x3_S_d0_1_2 : S32x1024x3.ReducesTo [0, 1, 2] S_
  h_S_ : 0 < S_.numel

variable [Facts]

def fn {F : FTy → Type} [FloatOps F] (main_arg0 : FVec F S32x1024x3 .f32) (main_arg1 : FVec F S32x1024x3 .f32) : IVec S_ 1 :=
  let main_v0 : FVec F S32x1024x3 .f32 := Host.absf main_arg0
  let main_cst : FVec F S_ .f32 := constant S_ .f32 0x7F800000#32
  let main_v1 : FVec F S32x1024x3 .f32 := broadcastInDim S32x1024x3 ![] bcast_S_S32x1024x3 main_cst
  let main_v2 : IVec S32x1024x3 1 := cmpf .olt main_v0 main_v1
  let main_c : IVec S_ 1 := constantI S_ 1 1#1
  let main_v3 : IVec S_ 1 := (fun x v => Host.reduce IntOp.andi x v reducesTo_S32x1024x3_S_d0_1_2 h_S_) main_v2 main_c
  let main_v4 : FVec F S32x1024x3 .f32 := Host.absf main_arg1
  let main_cst_0 : FVec F S_ .f32 := constant S_ .f32 0x7F800000#32
  let main_v5 : FVec F S32x1024x3 .f32 := broadcastInDim S32x1024x3 ![] bcast_S_S32x1024x3 main_cst_0
  let main_v6 : IVec S32x1024x3 1 := cmpf .olt main_v4 main_v5
  let main_c_1 : IVec S_ 1 := constantI S_ 1 1#1
  let main_v7 : IVec S_ 1 := (fun x v => Host.reduce IntOp.andi x v reducesTo_S32x1024x3_S_d0_1_2 h_S_) main_v6 main_c_1
  let main_v8 : IVec S_ 1 := andi main_v3 main_v7
  main_v8
-- ==== Kernel.lean ====
abbrev S32x1024x3 : Shape := ⟨3, ![32, 1024, 3]⟩
abbrev S32x3x1024 : Shape := ⟨3, ![32, 3, 1024]⟩
abbrev S1x1 : Shape := ⟨2, ![1, 1]⟩
abbrev S1x3x1024 : Shape := ⟨3, ![1, 3, 1024]⟩
abbrev S3x1024 : Shape := ⟨2, ![3, 1024]⟩
abbrev S1x3x256 : Shape := ⟨3, ![1, 3, 256]⟩
abbrev S3x256 : Shape := ⟨2, ![3, 256]⟩
abbrev S256x1024 : Shape := ⟨2, ![256, 1024]⟩
abbrev S1x256 : Shape := ⟨2, ![1, 256]⟩
abbrev S256x1 : Shape := ⟨2, ![256, 1]⟩
abbrev S1x1024 : Shape := ⟨2, ![1, 1024]⟩
abbrev S256 : Shape := ⟨1, ![256]⟩
abbrev S1 : Shape := ⟨1, ![1]⟩
abbrev S_ : Shape := ⟨0, ![]⟩

abbrev nBuf : Space → Nat
  | .hbm => 6
  | .vmem => 5
  | .smem => 0
  | _ => 0

abbrev bufTy : (tb : Table) → Fin (tcTables nBuf tb) → BufTy
  | .hbm, ⟨0, _⟩ => ⟨S32x1024x3, .f32⟩
  | .hbm, ⟨1, _⟩ => ⟨S32x1024x3, .f32⟩
  | .hbm, ⟨2, _⟩ => ⟨S32x3x1024, .f32⟩
  | .hbm, ⟨3, _⟩ => ⟨S32x3x1024, .f32⟩
  | .hbm, ⟨4, _⟩ => ⟨S1x1, .f32⟩
  | .hbm, ⟨5, _⟩ => ⟨S_, .f32⟩
  | .local _ .vmem, ⟨0, _⟩ => ⟨S1x3x1024, .f32⟩
  | .local _ .vmem, ⟨1, _⟩ => ⟨S1x3x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1, .f32⟩
  | _, _ => ⟨S32x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  transposes_S32x1024x3_S32x3x1024_0_2_1 : S32x1024x3.Transposes [0, 2, 1] S32x3x1024
  inb_S1x1_S1x1_0_0 : ∀ a, (![0, 0] : Fin 2 → Nat) a + S1x1.size a ≤ S1x1.size a
  h_S1x1 : 0 < S1x1.numel
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  inb_S1x3x1024_S1x3x256_0_0_0 : ∀ a, (![0, 0, 0] : Fin 3 → Nat) a + S1x3x256.size a ≤ S1x3x1024.size a
  h_S1x3x256 : 0 < S1x3x256.numel
  shapeCasts_S1x3x256_S3x256 : S1x3x256.ShapeCasts S3x256
  slices_S3x256_o0_0_S1x256 : S3x256.Slices ![0, 0] S1x256
  transposes_S1x256_p1_0_S256x1 : S1x256.Transposes [1, 0] S256x1
  slices_S3x1024_o0_0_S1x1024 : S3x1024.Slices ![0, 0] S1x1024
  broadcasts_S256x1_S256x1024 : S256x1.Broadcasts S256x1024
  broadcasts_S1x1024_S256x1024 : S1x1024.Broadcasts S256x1024
  slices_S3x256_o1_0_S1x256 : S3x256.Slices ![1, 0] S1x256
  slices_S3x1024_o1_0_S1x1024 : S3x1024.Slices ![1, 0] S1x1024
  slices_S3x256_o2_0_S1x256 : S3x256.Slices ![2, 0] S1x256
  slices_S3x1024_o2_0_S1x1024 : S3x1024.Slices ![2, 0] S1x1024
  iota_S256x1024_d0_w32 : S256x1024.Iotas .tc 32 [0]
  iota_S256x1024_d1_w32 : S256x1024.Iotas .tc 32 [1]
  reduces_S256x1024_S256 : S256x1024.Reduces [1] S256
  shapeCasts_S256_S256x1 : S256.ShapeCasts S256x1
  reduces_S256x1_S1 : S256x1.Reduces [0] S1
  shapeCasts_S1_S1x1 : S1.ShapeCasts S1x1
  inb_S1x3x1024_S1x3x256_0_0_256 : ∀ a, (![0, 0, 256] : Fin 3 → Nat) a + S1x3x256.size a ≤ S1x3x1024.size a
  inb_S1x3x1024_S1x3x256_0_0_512 : ∀ a, (![0, 0, 512] : Fin 3 → Nat) a + S1x3x256.size a ≤ S1x3x1024.size a
  inb_S1x3x1024_S1x3x256_0_0_768 : ∀ a, (![0, 0, 768] : Fin 3 → Nat) a + S1x3x256.size a ≤ S1x3x1024.size a
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x1024.size a ≤ S32x3x1024.size a
  hwx0_0 : ∀ i : grid0.Coords, EltTy.bits .f32 = 32 ∨ (Rect.block (s := S32x3x1024) S1x3x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S32x3x1024.size a
  hwx0_1 : ∀ i : grid0.Coords, EltTy.bits .f32 = 32 ∨ (Rect.block (s := S32x3x1024) S1x3x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S1x3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1024x3 : Shape := ⟨3, ![32, 1024, 3]⟩
abbrev S32x1024x1x3 : Shape := ⟨4, ![32, 1024, 1, 3]⟩
abbrev S32x1x1024x3 : Shape := ⟨4, ![32, 1, 1024, 3]⟩
abbrev S32x1024x1024x3 : Shape := ⟨4, ![32, 1024, 1024, 3]⟩
abbrev S_ : Shape := ⟨0, ![]⟩
abbrev S32x1024x1024 : Shape := ⟨3, ![32, 1024, 1024]⟩
abbrev S1024x1024 : Shape := ⟨2, ![1024, 1024]⟩
abbrev S1x1024x1024 : Shape := ⟨3, ![1, 1024, 1024]⟩
abbrev S32 : Shape := ⟨1, ![32]⟩

abbrev nBuf : Space → Nat
  | .hbm => 58
  | .vmem => 0
  | .smem => 0
  | _ => 0

abbrev bufTy : (tb : Table) → Fin (tcTables nBuf tb) → BufTy
  | .hbm, ⟨0, _⟩ => ⟨S32x1024x3, .f32⟩
  | .hbm, ⟨1, _⟩ => ⟨S32x1024x3, .f32⟩
  | .hbm, ⟨2, _⟩ => ⟨S32x1024x1x3, .f32⟩
  | .hbm, ⟨3, _⟩ => ⟨S32x1x1024x3, .f32⟩
  | .hbm, ⟨4, _⟩ => ⟨S32x1024x1024x3, .f32⟩
  | .hbm, ⟨5, _⟩ => ⟨S32x1024x1024x3, .f32⟩
  | .hbm, ⟨6, _⟩ => ⟨S32x1024x1024x3, .f32⟩
  | .hbm, ⟨7, _⟩ => ⟨S32x1024x1024x3, .f32⟩
  | .hbm, ⟨8, _⟩ => ⟨S_, .f32⟩
  | .hbm, ⟨9, _⟩ => ⟨S32x1024x1024, .f32⟩
  | .hbm, ⟨10, _⟩ => ⟨S_, .f32⟩
  | .hbm, ⟨11, _⟩ => ⟨S32x1024x1024, .f32⟩
  | .hbm, ⟨12, _⟩ => ⟨S32x1024x1024, .f32⟩
  | .hbm, ⟨13, _⟩ => ⟨S32x1024x1024, .f32⟩
  | .hbm, ⟨14, _⟩ => ⟨S32x1024x1x3, .f32⟩
  | .hbm, ⟨15, _⟩ => ⟨S32x1x1024x3, .f32⟩
  | .hbm, ⟨16, _⟩ => ⟨S32x1024x1024x3, .f32⟩
  | .hbm, ⟨17, _⟩ => ⟨S32x1024x1024x3, .f32⟩
  | .hbm, ⟨18, _⟩ => ⟨S32x1024x1024x3, .f32⟩
  | .hbm, ⟨19, _⟩ => ⟨S32x1024x1024x3, .f32⟩
  | .hbm, ⟨20, _⟩ => ⟨S_, .f32⟩
  | .hbm, ⟨21, _⟩ => ⟨S32x1024x1024, .f32⟩
  | .hbm, ⟨22, _⟩ => ⟨S_, .f32⟩
  | .hbm, ⟨23, _⟩ => ⟨S32x1024x1024, .f32⟩
  | .hbm, ⟨24, _⟩ => ⟨S32x1024x1024, .f32⟩
  | .hbm, ⟨25, _⟩ => ⟨S32x1024x1024, .f32⟩
  | .hbm, ⟨26, _⟩ => ⟨S1024x1024, .i32⟩
  | .hbm, ⟨27, _⟩ => ⟨S1024x1024, .i32⟩
  | .hbm, ⟨28, _⟩ => ⟨S_, .i32⟩
  | .hbm, ⟨29, _⟩ => ⟨S1024x1024, .i32⟩
  | .hbm, ⟨30, _⟩ => ⟨S1024x1024, .i32⟩
  | .hbm, ⟨31, _⟩ => ⟨S1024x1024, .i1⟩
  | .hbm, ⟨32, _⟩ => ⟨S32x1024x1024, .i1⟩
  | .hbm, ⟨33, _⟩ => ⟨S32x1024x1024, .i1⟩
  | .hbm, ⟨34, _⟩ => ⟨S1x1024x1024, .i1⟩
  | .hbm, ⟨35, _⟩ => ⟨S1x1024x1024, .i1⟩
  | .hbm, ⟨36, _⟩ => ⟨S32x1024x1024, .i1⟩
  | .hbm, ⟨37, _⟩ => ⟨S32x1024x1024, .i1⟩
  | .hbm, ⟨38, _⟩ => ⟨S32x1024x1024, .f32⟩
  | .hbm, ⟨39, _⟩ => ⟨S32x1024x1024, .f32⟩
  | .hbm, ⟨40, _⟩ => ⟨S_, .f32⟩
  | .hbm, ⟨41, _⟩ => ⟨S_, .f32⟩
  | .hbm, ⟨42, _⟩ => ⟨S32x1024x1024, .f32⟩
  | .hbm, ⟨43, _⟩ => ⟨S32x1024x1024, .f32⟩
  | .hbm, ⟨44, _⟩ => ⟨S_, .f32⟩
  | .hbm, ⟨45, _⟩ => ⟨S32, .f32⟩
  | .hbm, ⟨46, _⟩ => ⟨S32x1024x1024, .i32⟩
  | .hbm, ⟨47, _⟩ => ⟨S_, .i32⟩
  | .hbm, ⟨48, _⟩ => ⟨S32, .i32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S32x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_c_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  bcast_S32x1024x3_S32x1024x1x3_0_1_3 : S32x1024x3.BroadcastsInDim S32x1024x1x3 (![0, 1, 3] : Fin 3 → Fin S32x1024x1x3.rank)
  bcast_S32x1024x3_S32x1x1024x3_0_2_3 : S32x1024x3.BroadcastsInDim S32x1x1024x3 (![0, 2, 3] : Fin 3 → Fin S32x1x1024x3.rank)
  bcast_S32x1024x1x3_S32x1024x1024x3_0_1_2_3 : S32x1024x1x3.BroadcastsInDim S32x1024x1024x3 (![0, 1, 2, 3] : Fin 4 → Fin S32x1024x1024x3.rank)
  bcast_S32x1x1024x3_S32x1024x1024x3_0_1_2_3 : S32x1x1024x3.BroadcastsInDim S32x1024x1024x3 (![0, 1, 2, 3] : Fin 4 → Fin S32x1024x1024x3.rank)
  reducesTo_S32x1024x1024x3_S32x1024x1024_d3 : S32x1024x1024x3.ReducesTo [3] S32x1024x1024
  h_S_ : 0 < S_.numel
  bcast_S_S32x1024x1024 : S_.BroadcastsInDim S32x1024x1024 (![] : Fin 0 → Fin S32x1024x1024.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  reducesTo_S32x1024x1024_S32_d1_2 : S32x1024x1024.ReducesTo [1, 2] S32
  natLt_1_32 : 1 < 32
  bcast_S_S32 : S_.BroadcastsInDim S32 (![] : Fin 0 → Fin S32.rank)
  reducesTo_S32_S_d0 : S32.ReducesTo [0] S_

variable [Facts₀]

class Facts : Prop extends Facts₀ where

variable [Facts]
-- ==== Proof.Spec.lean ====
/-
  The loss both programs compute, as one function of the two point clouds.

  A cloud of one batch is given by its coordinates `p c i` (coordinate `c` of point `i`). For two clouds `p`, `q`
  of 1024 points each, the pairwise distance is `dist p i j = √(Σ_c (p c i − p c j)² + ε)`, the summand of a pair
  `(i, j)` is `|dist p i j − dist q i j|` off the diagonal and `0` on it, a batch's value is the sum over all
  pairs divided by the number of off-diagonal pairs (1024 · 1023) and then by 10, and the loss is the sum of the
  32 batch values divided by 32. The sum over the rows `i` may be taken in four quarters of 256 rows: the
  extended reals are a commutative monoid under `+`, so no finiteness is needed for that.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.Spec

open Idealize.ShloMosaic

/-- One batch's point cloud: coordinate `c` of point `i`. -/
abbrev Cloud := Fin 3 → Fin 1024 → EReal

/-- The four float constants of the two programs: ε, the number of ordered pairs of distinct points, 10 and 32. -/
def eps : EReal := Ideal.ofBits .f32 0x38D1B717#32
def pairs : EReal := Ideal.ofBits .f32 0x497FC000#32
def scale : EReal := Ideal.ofBits .f32 0x41200000#32
def batches : EReal := Ideal.ofBits .f32 0x42000000#32

/-- The pattern `0x497FC000` denotes 1024 · 1023 = 1047552. -/
theorem pairs_eq : pairs = ((1047552 : ℝ) : EReal) := by
  unfold pairs
  simp [Ideal.ofBits, Ideal.ieee, -EReal.coe_mul]; norm_num

/-- The squared distance of points `i`, `j`: the three squared coordinate differences, added in order. -/
def sqd (p : Cloud) (i j : Fin 1024) : EReal :=
  (p 0 i - p 0 j) * (p 0 i - p 0 j) + (p 1 i - p 1 j) * (p 1 i - p 1 j) + (p 2 i - p 2 j) * (p 2 i - p 2 j)

/-- The smoothed distance `√(sqd + ε)`. -/
def dist (p : Cloud) (i j : Fin 1024) : EReal := Ideal.sqrt (sqd p i j + eps)

/-- The absolute difference of the two clouds' distances of one pair. -/
def gap (p q : Cloud) (i j : Fin 1024) : EReal := max (dist p i j - dist q i j) (-(dist p i j - dist q i j))

/-- A pair's summand: nothing on the diagonal. -/
def term (p q : Cloud) (i j : Fin 1024) : EReal := if i = j then 0 else gap p q i j

/-- The sum over all ordered pairs. -/
def batchSum (p q : Cloud) : EReal := ∑ i : Fin 1024, ∑ j : Fin 1024, term p q i j

/-- A batch's value: the mean over the off-diagonal pairs, over 10. -/
def perBatch (p q : Cloud) : EReal := Ideal.div (Ideal.div (batchSum p q) pairs) scale

/-- The loss: the mean of the 32 batch values. -/
def loss (P Q : Fin 32 → Cloud) : EReal := Ideal.div (∑ b : Fin 32, perBatch (P b) (Q b)) batches

/-- Batch `b` of a [32, 1024, 3] array of points as a cloud: coordinate `c` of point `i` is the array at `(b, i, c)`. -/
def batchCloud (x : (⟨3, ![32, 1024, 3]⟩ : Shape).Idx → EReal) (b : Fin 32) : Cloud := fun c i => x (ValueIdx.ix3 b i c)

/-- A summand selected by a one-bit mask that is set exactly off the diagonal. -/
theorem select_mask (p q : Cloud) (i j : Fin 1024) (c : BitVec 1) (hc : c = 1#1 ↔ i ≠ j) :
    Scalar.select c (gap p q i j) (Ideal.ofBits .f32 0x00000000#32) = term p q i j := by
  unfold Scalar.select term
  rw [Ideal.ofBits_zero_f32]
  by_cases h : i = j
  · have hc' : ¬c = 1 := fun hc' => (hc.mp hc') h
    rw [if_pos h, if_neg hc']
  · have hc' : c = 1 := hc.mpr h
    rw [if_neg h, if_pos hc']

/-! ## The rows in four quarters -/

/-- Row `s + k` of the quarter that starts at `s`. -/
def rowAt (s : ℕ) (hs : s + 256 ≤ 1024) (k : Fin 256) : Fin 1024 := ⟨s + k.val, by have := k.isLt; omega⟩

/-- The pairs whose first point lies in the quarter starting at `s`. -/
def tileSum (p q : Cloud) (s : ℕ) (hs : s + 256 ≤ 1024) : EReal :=
  ∑ k : Fin 256, ∑ l : Fin 1024, term p q (rowAt s hs k) l

/-- A sum over 1024 rows is the sum of its four quarters, first to last. -/
theorem sum_quarters (g : Fin 1024 → EReal) :
    ∑ i : Fin 1024, g i = (∑ k : Fin 256, g (rowAt 0 (by decide) k)) + (∑ k : Fin 256, g (rowAt 256 (by decide) k))
      + (∑ k : Fin 256, g (rowAt 512 (by decide) k)) + (∑ k : Fin 256, g (rowAt 768 (by decide) k)) := by
  have e : ∑ i : Fin (4 * 256), g i = ∑ a : Fin 4, ∑ k : Fin 256, g (finProdFinEquiv (a, k)) := by
    rw [← finProdFinEquiv.sum_comp, Fintype.sum_prod_type]
  have h : ∀ (a : Fin 4) (s : ℕ) (hs : s + 256 ≤ 1024), s = 256 * a.val →
      ∑ k : Fin 256, g (finProdFinEquiv (a, k)) = ∑ k : Fin 256, g (rowAt s hs k) := by
    intro a s hs ha
    refine Finset.sum_congr rfl fun k _ => congrArg g (Fin.ext ?_)
    show k.val + 256 * a.val = s + k.val
    omega
  show ∑ i : Fin (4 * 256), g i = _
  rw [e, Fin.sum_univ_four, h 0 0 _ rfl, h 1 256 _ rfl, h 2 512 _ rfl, h 3 768 _ rfl]

/-- So a batch's sum over all pairs is the sum of the four quarters' sums. -/
theorem batchSum_quarters (p q : Cloud) :
    batchSum p q = tileSum p q 0 (by decide) + tileSum p q 256 (by decide) + tileSum p q 512 (by decide)
      + tileSum p q 768 (by decide) :=
  sum_quarters fun i => ∑ j : Fin 1024, term p q i j

/-! ## Words -/

/-- Two small naturals as 32-bit words are equal exactly when they are. -/
theorem word_eq_iff (a b : ℕ) (ha : a < 2 ^ 32) (hb : b < 2 ^ 32) :
    IntOp.cmpi .eq (BitVec.ofNat 32 a) (BitVec.ofNat 32 b) = 1#1 ↔ a = b := by
  have hinj : BitVec.ofNat 32 a = BitVec.ofNat 32 b → a = b := by
    intro e
    have := congrArg BitVec.toNat e
    simp only [BitVec.toNat_ofNat] at this
    rwa [Nat.mod_eq_of_lt ha, Nat.mod_eq_of_lt hb] at this
  show BitVec.ofBool (BitVec.ofNat 32 a == BitVec.ofNat 32 b) = 1#1 ↔ a = b
  by_cases h : a = b
  · subst h; simp
  · have hw : BitVec.ofNat 32 a ≠ BitVec.ofNat 32 b := fun e => h (hinj e)
    have : (BitVec.ofNat 32 a == BitVec.ofNat 32 b) = false := beq_eq_false_iff_ne.mpr hw
    rw [this]
    exact ⟨fun e => absurd e (by decide), fun e => absurd e h⟩

/-- Two small naturals as 32-bit words differ exactly when they differ. -/
theorem word_ne_iff (a b : ℕ) (ha : a < 2 ^ 32) (hb : b < 2 ^ 32) :
    IntOp.cmpi .ne (BitVec.ofNat 32 a) (BitVec.ofNat 32 b) = 1#1 ↔ a ≠ b := by
  have hinj : BitVec.ofNat 32 a = BitVec.ofNat 32 b → a = b := by
    intro e
    have := congrArg BitVec.toNat e
    simp only [BitVec.toNat_ofNat] at this
    rwa [Nat.mod_eq_of_lt ha, Nat.mod_eq_of_lt hb] at this
  show BitVec.ofBool (BitVec.ofNat 32 a != BitVec.ofNat 32 b) = 1#1 ↔ a ≠ b
  by_cases h : a = b
  · subst h; simp
  · have hw : BitVec.ofNat 32 a ≠ BitVec.ofNat 32 b := fun e => h (hinj e)
    have : (BitVec.ofNat 32 a != BitVec.ofNat 32 b) = true := bne_iff_ne.mpr hw
    rw [this]
    exact ⟨fun _ => h, fun _ => rfl⟩

end Cert.Spec

end
-- ==== Proof.Tile.lean ====
/-
  One grid point of the kernel as vector-level functions, and what they are at the ideal values.

  A grid point `b` holds the two clouds of batch `b` as 3 × 1024 coordinate matrices. The body walks the 1024 rows
  in four quarters of 256: for a quarter starting at row `s` it forms, per cloud, the 256 × 1024 matrix of squared
  distances `Σ_c (x c (s + k) − x c l)²` (one coordinate at a time, the row coordinate transposed into a column and
  both sides broadcast), adds ε, takes square roots, the absolute difference of the two clouds' matrices, clears the
  diagonal `s + k = l` by an integer mask, and sums along the points and then along the rows. The four quarter totals
  are added to zero in order, divided by 1024 · 1023 and by 10, and added to the running value.
  Read at the extended reals each of these is the corresponding sum of `Spec`: entry `(k, l)` of a quarter is
  `Spec.term p q (s + k) l`, a quarter's total `Spec.tileSum`, the point's increment `Spec.perBatch`.
-/
import proofs.«164291_j31954556682741_1_alg».proof.Proof.Gen.KernelIdeal
import proofs.«164291_j31954556682741_1_alg».proof.Proof.Spec
import Idealize.ShloMosaic.Lib.Pipeline.Value
import Idealize.ShloMosaic.Lib.Pipeline.FrameBody
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx

namespace Cert.KernelIdeal.Hand

open Cert.KernelIdeal Cert.KernelIdeal.Gen

section Generic

variable {F : FTy → Type} [FloatOps F]

/-- One coordinate's squared differences between the 256 rows of a quarter and all 1024 points:
    entry `(k, l)` is `(row c k − full c l)²`. -/
def sqcomp (c : ℕ) (hr : S3x256.Slices ![c, 0] S1x256) (hf : S3x1024.Slices ![c, 0] S1x1024)
    (full : FVec F S3x1024 .f32) (row : FVec F S3x256 .f32) : FVec F S256x1024 .f32 :=
  have d : FVec F S256x1024 .f32 :=
    subf (broadcastTo S256x1024 (transpose S256x1 [1, 0] (extractStridedSlice S1x256 ![c, 0] row hr) transposes_S1x256_p1_0_S256x1) broadcasts_S256x1_S256x1024)
      (broadcastTo S256x1024 (extractStridedSlice S1x1024 ![c, 0] full hf) broadcasts_S1x1024_S256x1024)
  mulf d d

/-- The squared distances of a quarter's rows to all points: the three coordinates' squares added to zero in order. -/
def sqdist (full : FVec F S3x1024 .f32) (row : FVec F S3x256 .f32) : FVec F S256x1024 .f32 :=
  addf (addf (addf (broadcast S256x1024 (Scalar.ofBits .f32 0x00000000#32))
    (sqcomp 0 slices_S3x256_o0_0_S1x256 slices_S3x1024_o0_0_S1x1024 full row))
    (sqcomp 1 slices_S3x256_o1_0_S1x256 slices_S3x1024_o1_0_S1x1024 full row))
    (sqcomp 2 slices_S3x256_o2_0_S1x256 slices_S3x1024_o2_0_S1x1024 full row)

/-- The off-diagonal mask of a quarter starting at row `s`: the row number `s + k` differs from the column number. -/
def mask (s : BitVec 32) : IVec S256x1024 1 :=
  cmpi .ne (addi (broadcast S256x1024 s) (iota .tc S256x1024 32 [0] iota_S256x1024_d0_w32)) (iota .tc S256x1024 32 [1] iota_S256x1024_d1_w32)

/-- A quarter's absolute differences of the two clouds' smoothed distances. -/
def absdiff (pf gf : FVec F S3x1024 .f32) (pr gr : FVec F S3x256 .f32) : FVec F S256x1024 .f32 :=
  absf (subf (sqrt (addf (sqdist pf pr) (broadcast S256x1024 (Scalar.ofBits .f32 0x38D1B717#32))))
    (sqrt (addf (sqdist gf gr) (broadcast S256x1024 (Scalar.ofBits .f32 0x38D1B717#32)))))

/-- A quarter's masked absolute differences, summed along the points and then along the rows. -/
def tileTotal (s : BitVec 32) (pf gf : FVec F S3x1024 .f32) (pr gr : FVec F S3x256 .f32) : FVec F S1x1 .f32 :=
  shapeCast S1x1 (multiReduction .add [0] S1 (shapeCast S256x1 (multiReduction .add [1] S256
    (select (mask s) (absdiff pf gf pr gr) (broadcast S256x1024 (Scalar.ofBits .f32 0x00000000#32)))
    0x00000000#32 reduces_S256x1024_S256 (.inl rfl) rfl) shapeCasts_S256_S256x1) 0x00000000#32 reduces_S256x1_S1 (.inl rfl) rfl) shapeCasts_S1_S1x1

/-- A block of one batch as its 3 × 1024 coordinate matrix. -/
def fullOf (x : Vec F S1x3x1024 .f32) : FVec F S3x1024 .f32 := shapeCast S3x1024 x shapeCasts_S1x3x1024_S3x1024

/-- The 256 columns of a block from column `o`, as a 3 × 256 matrix. -/
def rowOf (x : Vec F S1x3x1024 .f32) (o : ℕ) (inb : ∀ a, (![0, 0, o] : Fin 3 → Nat) a + S1x3x256.size a ≤ S1x3x1024.size a) :
    FVec F S3x256 .f32 :=
  shapeCast S3x256 (View.ld x (Rect.unit (s := S1x3x1024) ![0, 0, o] S1x3x256.size inb)) shapeCasts_S1x3x256_S3x256

/-- A quarter's total over a batch's two blocks. -/
def tileOf (s : BitVec 32) (o : ℕ) (inb : ∀ a, (![0, 0, o] : Fin 3 → Nat) a + S1x3x256.size a ≤ S1x3x1024.size a)
    (x0 x1 : Vec F S1x3x1024 .f32) : FVec F S1x1 .f32 :=
  tileTotal s (fullOf x0) (fullOf x1) (rowOf x0 o inb) (rowOf x1 o inb)

/-- What one grid point adds to the running value `xo`: the four quarters' totals added to zero in order, divided by
    the number of pairs and by ten. -/
def pointOut (x0 x1 : Vec F S1x3x1024 .f32) (xo : Vec F S1x1 .f32) : FVec F S1x1 .f32 :=
  addf (shapeCast S1x1 xo shapeCasts_S1x1_S1x1)
    (divf (divf (addf (addf (addf (addf (broadcast S1x1 (Scalar.ofBits .f32 0x00000000#32))
      (tileOf 0#32 0 inb_S1x3x1024_S1x3x256_0_0_0 x0 x1))
      (tileOf 256#32 256 inb_S1x3x1024_S1x3x256_0_0_256 x0 x1))
      (tileOf 512#32 512 inb_S1x3x1024_S1x3x256_0_0_512 x0 x1))
      (tileOf 768#32 768 inb_S1x3x1024_S1x3x256_0_0_768 x0 x1))
      (broadcast S1x1 (Scalar.ofBits .f32 0x497FC000#32))) (broadcast S1x1 (Scalar.ofBits .f32 0x41200000#32)))

/-- The last point's closing division by the number of batches. -/
def closeOut (v : Vec F S1x1 .f32) : FVec F S1x1 .f32 :=
  divf (shapeCast S1x1 v shapeCasts_S1x1_S1x1) (broadcast S1x1 (Scalar.ofBits .f32 0x42000000#32))

end Generic

/-! ## At the ideal values -/

open Cert.Spec (Cloud)

/-- Entry `(k, l)` of one coordinate's matrix is the squared difference of that coordinate. -/
theorem sqcomp_apply (c : ℕ) (hc : c < 3) (hr : S3x256.Slices ![c, 0] S1x256) (hf : S3x1024.Slices ![c, 0] S1x1024)
    (full : FVec Ideal S3x1024 .f32) (row : FVec Ideal S3x256 .f32) (k : Fin 256) (l : Fin 1024) :
    sqcomp c hr hf full row (ix2 k l)
      = (row (ix2 (⟨c, hc⟩ : Fin 3) k) - full (ix2 (⟨c, hc⟩ : Fin 3) l)) * (row (ix2 (⟨c, hc⟩ : Fin 3) k) - full (ix2 (⟨c, hc⟩ : Fin 3) l)) := by
  have hA : broadcastTo S256x1024 (transpose S256x1 [1, 0] (extractStridedSlice S1x256 ![c, 0] row hr) transposes_S1x256_p1_0_S256x1)
      broadcasts_S256x1_S256x1024 (ix2 k l) = row (ix2 (⟨c, hc⟩ : Fin 3) k) := by
    refine (broadcastTo_apply _ _ (ix2 k l) (ix2 k (0 : Fin 1)) fun a => ?_).trans ?_
    · match a with
      | ⟨0, _⟩ => show k.val = if (256 : ℕ) = 1 then 0 else k.val; rw [if_neg (by decide)]
      | ⟨1, _⟩ => show 0 = if (1 : ℕ) = 1 then 0 else l.val; rw [if_pos rfl]
    · exact (transpose_ix2_apply _ _ k (0 : Fin 1)).trans
        (slice2_axis0_apply c row hr (0 : Fin 1) k (⟨c, hc⟩ : Fin 3) (Nat.add_zero c).symm)
  have hB : broadcastTo S256x1024 (extractStridedSlice S1x1024 ![c, 0] full hf) broadcasts_S1x1024_S256x1024 (ix2 k l)
      = full (ix2 (⟨c, hc⟩ : Fin 3) l) :=
    (broadcastTo_1b_ab_apply _ _ k l).trans (slice2_axis0_apply c full hf (0 : Fin 1) l (⟨c, hc⟩ : Fin 3) (Nat.add_zero c).symm)
  show (_ - _) * (_ - _) = _
  rw [hA, hB]

/-- So entry `(k, l)` of a quarter's squared-distance matrix is the squared distance of row `s + k` and point `l`. -/
theorem sqdist_apply (p : Cloud) (s : ℕ) (hs : s + 256 ≤ 1024) (full : FVec Ideal S3x1024 .f32) (row : FVec Ideal S3x256 .f32)
    (hfull : ∀ (c : Fin 3) (l : Fin 1024), full (ix2 c l) = p c l)
    (hrow : ∀ (c : Fin 3) (k : Fin 256), row (ix2 c k) = p c (Spec.rowAt s hs k)) (k : Fin 256) (l : Fin 1024) :
    sqdist full row (ix2 k l) = Spec.sqd p (Spec.rowAt s hs k) l := by
  show ((Ideal.ofBits .f32 0x00000000#32 + sqcomp 0 _ _ full row (ix2 k l)) + sqcomp 1 _ _ full row (ix2 k l))
    + sqcomp 2 _ _ full row (ix2 k l) = _
  rw [sqcomp_apply 0 (by decide), sqcomp_apply 1 (by decide), sqcomp_apply 2 (by decide), Ideal.ofBits_zero_f32, zero_add,
    hfull, hfull, hfull, hrow, hrow, hrow]
  rfl

/-- The mask of the quarter starting at `s` is set at `(k, l)` exactly when row `s + k` is not point `l`. -/
theorem mask_apply (s : ℕ) (hs : s + 256 ≤ 1024) (k : Fin 256) (l : Fin 1024) :
    mask (BitVec.ofNat 32 s) (ix2 k l) = 1#1 ↔ Spec.rowAt s hs k ≠ l := by
  have hk := k.isLt
  have hl := l.isLt
  show IntOp.cmpi .ne (BitVec.ofNat 32 s + iota .tc S256x1024 32 [0] iota_S256x1024_d0_w32 (ix2 k l))
    (iota .tc S256x1024 32 [1] iota_S256x1024_d1_w32 (ix2 k l)) = 1#1 ↔ _
  rw [iota_single_apply, iota_single_apply]
  show IntOp.cmpi .ne (BitVec.ofNat 32 s + BitVec.ofNat 32 k.val) (BitVec.ofNat 32 l.val) = 1#1 ↔ _
  rw [← BitVec.ofNat_add, Spec.word_ne_iff _ _ (by omega) (by omega)]
  constructor
  · intro h e; exact h (congrArg Fin.val e)
  · intro h e; exact h (Fin.ext e)

/-- Entry `(k, l)` of a quarter's absolute differences is the gap of the pair (row `s + k`, point `l`). -/
theorem absdiff_apply (p q : Cloud) (s : ℕ) (hs : s + 256 ≤ 1024) (pf gf : FVec Ideal S3x1024 .f32) (pr gr : FVec Ideal S3x256 .f32)
    (hpf : ∀ (c : Fin 3) (l : Fin 1024), pf (ix2 c l) = p c l) (hgf : ∀ (c : Fin 3) (l : Fin 1024), gf (ix2 c l) = q c l)
    (hpr : ∀ (c : Fin 3) (k : Fin 256), pr (ix2 c k) = p c (Spec.rowAt s hs k))
    (hgr : ∀ (c : Fin 3) (k : Fin 256), gr (ix2 c k) = q c (Spec.rowAt s hs k)) (k : Fin 256) (l : Fin 1024) :
    absdiff pf gf pr gr (ix2 k l) = Spec.gap p q (Spec.rowAt s hs k) l := by
  show max (Ideal.sqrt (sqdist pf pr (ix2 k l) + Ideal.ofBits .f32 0x38D1B717#32) - Ideal.sqrt (sqdist gf gr (ix2 k l) + Ideal.ofBits .f32 0x38D1B717#32))
    (-(Ideal.sqrt (sqdist pf pr (ix2 k l) + Ideal.ofBits .f32 0x38D1B717#32) - Ideal.sqrt (sqdist gf gr (ix2 k l) + Ideal.ofBits .f32 0x38D1B717#32))) = _
  rw [sqdist_apply p s hs pf pr hpf hpr, sqdist_apply q s hs gf gr hgf hgr]
  rfl

/-- A length-256 vector viewed as a 256 × 1 column reads, at `(k, u)`, the vector at `k`. -/
theorem column_apply {α : Type} (v : S256.Idx → α) (h : S256.ShapeCasts S256x1) (k : Fin 256) (u : Fin 1) :
    shapeCast S256x1 v h (ix2 k u) = v (ix1 k) :=
  shapeCast_apply v h _ _ (by
    have hu : u.val = 0 := by omega
    rw [Shape.rowMajor_val_two, Shape.rowMajor_val_one]
    show k.val = k.val * 1 + u.val
    omega)

/-- A quarter's total is the sum over the pairs whose first point lies in the quarter. -/
theorem tileTotal_apply (p q : Cloud) (s : ℕ) (hs : s + 256 ≤ 1024) (pf gf : FVec Ideal S3x1024 .f32) (pr gr : FVec Ideal S3x256 .f32)
    (hpf : ∀ (c : Fin 3) (l : Fin 1024), pf (ix2 c l) = p c l) (hgf : ∀ (c : Fin 3) (l : Fin 1024), gf (ix2 c l) = q c l)
    (hpr : ∀ (c : Fin 3) (k : Fin 256), pr (ix2 c k) = p c (Spec.rowAt s hs k))
    (hgr : ∀ (c : Fin 3) (k : Fin 256), gr (ix2 c k) = q c (Spec.rowAt s hs k)) (j : S1x1.Idx) :
    tileTotal (BitVec.ofNat 32 s) pf gf pr gr j = Spec.tileSum p q s hs := by
  obtain ⟨u, i, rfl⟩ : ∃ (u : Fin 1) (i : Fin 1), j = ix2 u i := ⟨j 0, j 1, eq_ix2 j⟩
  unfold tileTotal Spec.tileSum
  refine (shapeCast_a_1a_apply _ _ u i).trans ?_
  refine (Ideal.multiReduction_add_single _ _ reduces_S256x1_S1 (.inl rfl) rfl (ix1 i)).trans ?_
  refine Finset.sum_congr rfl fun (k : Fin 256) _ => ?_
  have hl : reduces_S256x1_S1.lift (ix1 i) k = ix2 k i :=
    funext fun a => Fin.ext (by match a with | ⟨0, _⟩ => rfl | ⟨1, _⟩ => rfl)
  refine (congrArg _ hl).trans ?_
  refine (column_apply _ _ k i).trans ?_
  refine (Ideal.multiReduction_add_single _ _ reduces_S256x1024_S256 (.inl rfl) rfl (ix1 k)).trans ?_
  refine Finset.sum_congr rfl fun (l : Fin 1024) _ => ?_
  have hl2 : reduces_S256x1024_S256.lift (ix1 k) l = ix2 k l :=
    funext fun a => Fin.ext (by match a with | ⟨0, _⟩ => rfl | ⟨1, _⟩ => rfl)
  refine (congrArg _ hl2).trans ?_
  show Scalar.select (mask (BitVec.ofNat 32 s) (ix2 k l)) (absdiff pf gf pr gr (ix2 k l)) (Ideal.ofBits .f32 0x00000000#32) = _
  rw [absdiff_apply p q s hs pf gf pr gr hpf hgf hpr hgr]
  exact Spec.select_mask p q _ _ _ (mask_apply s hs k l)

/-- A block's coordinate matrix reads the block at `(0, c, l)`. -/
theorem fullOf_apply (x : Vec Ideal S1x3x1024 .f32) (c : Fin 3) (l : Fin 1024) : fullOf x (ix2 c l) = x (ix3 (0 : Fin 1) c l) :=
  shapeCast_1ab_ab_apply x _ c l

/-- The columns of a block from `o` read the block at `(0, c, o + k)`. -/
theorem rowOf_apply (x : Vec Ideal S1x3x1024 .f32) (o : ℕ) (ho : o + 256 ≤ 1024)
    (inb : ∀ a, (![0, 0, o] : Fin 3 → Nat) a + S1x3x256.size a ≤ S1x3x1024.size a) (c : Fin 3) (k : Fin 256) :
    rowOf x o inb (ix2 c k) = x (ix3 (0 : Fin 1) c (Spec.rowAt o ho k)) := by
  refine (shapeCast_1ab_ab_apply _ _ c k).trans ?_
  show x _ = x _
  refine congrArg x (funext fun a => Fin.ext ?_)
  match a with
  | ⟨0, _⟩ => rfl
  | ⟨1, _⟩ => show 0 + 1 * c.val = c.val; omega
  | ⟨2, _⟩ => show o + 1 * k.val = o + k.val; omega

/-- The cloud a block holds: coordinate `c` of point `l` is the block at `(0, c, l)`. -/
def cloudOf (x : Vec Ideal S1x3x1024 .f32) : Cloud := fun c l => x (ix3 (0 : Fin 1) c l)

/-- One grid point adds its batch's value to the running value. -/
theorem pointOut_apply (x0 x1 : Vec Ideal S1x3x1024 .f32) (xo : Vec Ideal S1x1 .f32) (j : S1x1.Idx) :
    pointOut x0 x1 xo j = xo j + Spec.perBatch (cloudOf x0) (cloudOf x1) := by
  have ht : ∀ (s : ℕ) (hs : s + 256 ≤ 1024) (inb : ∀ a, (![0, 0, s] : Fin 3 → Nat) a + S1x3x256.size a ≤ S1x3x1024.size a),
      tileOf (BitVec.ofNat 32 s) s inb x0 x1 j = Spec.tileSum (cloudOf x0) (cloudOf x1) s hs :=
    fun s hs inb => tileTotal_apply _ _ s hs _ _ _ _ (fullOf_apply x0) (fullOf_apply x1) (rowOf_apply x0 s hs inb) (rowOf_apply x1 s hs inb) j
  show shapeCast S1x1 xo shapeCasts_S1x1_S1x1 j + Ideal.div (Ideal.div ((((Ideal.ofBits .f32 0x00000000#32
      + tileOf (BitVec.ofNat 32 0) 0 inb_S1x3x1024_S1x3x256_0_0_0 x0 x1 j) + tileOf (BitVec.ofNat 32 256) 256 inb_S1x3x1024_S1x3x256_0_0_256 x0 x1 j)
      + tileOf (BitVec.ofNat 32 512) 512 inb_S1x3x1024_S1x3x256_0_0_512 x0 x1 j) + tileOf (BitVec.ofNat 32 768) 768 inb_S1x3x1024_S1x3x256_0_0_768 x0 x1 j)
      (Ideal.ofBits .f32 0x497FC000#32)) (Ideal.ofBits .f32 0x41200000#32) = _
  rw [shapeCast_self, ht 0 (by decide), ht 256 (by decide), ht 512 (by decide), ht 768 (by decide), Ideal.ofBits_zero_f32, zero_add,
    ← Spec.batchSum_quarters]
  rfl

/-- The closing division is by the number of batches. -/
theorem closeOut_apply (v : Vec Ideal S1x1 .f32) (j : S1x1.Idx) : closeOut v j = Ideal.div (v j) Spec.batches := by
  show Ideal.div (shapeCast S1x1 v shapeCasts_S1x1_S1x1 j) (Ideal.ofBits .f32 0x42000000#32) = _
  rw [shapeCast_self]
  rfl

end Cert.KernelIdeal.Hand

end
-- ==== Proof.Pieces.lean ====
/-
  What each of the body's three control cases leaves in the output's 1 × 1 staging buffer.

  At the first grid point the body stores zero, reads it back and stores zero plus the point's increment; at the
  points in between it reads the running value and stores it plus the increment; at the last point it does the same
  and then reads that back and stores it divided by the number of batches. Each case's last covering store is what the
  buffer holds, and its payload is the vector-level function of `Tile` by unfolding.
-/
import proofs.«164291_j31954556682741_1_alg».proof.Proof.Gen.KernelIdeal.Frame
import proofs.«164291_j31954556682741_1_alg».proof.Proof.Tile
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Hand

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The zero the first point resets the running value to. -/
abbrev zero11 : Vec F S1x1 .f32 := broadcast S1x1 (Scalar.ofBits .f32 0x00000000#32)

/-- A point in between: the running value `xo` plus the point's increment. -/
theorem out_B (c : Dev nD) (i : grid0.Coords) (a1 : Memref sig .tc .vmem S1x3x1024 .f32) (h1 : a1.IsWhole)
    (a2 : Memref sig .tc .vmem S1x3x1024 .f32) (h2 : a2.IsWhole) (a3 : Memref sig .tc .vmem S1x1 .f32) (h3 : a3.IsWhole)
    (hc0 : ¬cond0_0 i) (hc1 : ¬cond0_1 i) (x0 x1 : Vec F S1x3x1024 .f32) (xo2 : Vec F S1x1 .f32) :
    out0_B_2 c i a1 h1 a2 h2 a3 h3 hc0 hc1 x0 x1 xo2 = pointOut x0 x1 xo2 := by
  unfold out0_B_2
  rw [View.read_writes_eq_canon _ _ _ (cover0_B_2 c i a1 h1 a2 h2 a3 h3 hc0 hc1 x0 x1 xo2)]
  unfold kernelRun0_B
  dsimp only
  sl_unfold_words
  rw [View.canon_unit_zero hz2]
  simp only [View.readAt_eq_ld, h1.read_unread, h2.read_unread, h3.read_unread, View.ld_unit_zero (S := S1x3x1024) hz3,
    View.ld_unit_zero (S := S1x1) hz2]
  rfl

/-- The first point: zero plus the point's increment. -/
theorem out_A (c : Dev nD) (i : grid0.Coords) (a1 : Memref sig .tc .vmem S1x3x1024 .f32) (h1 : a1.IsWhole)
    (a2 : Memref sig .tc .vmem S1x3x1024 .f32) (h2 : a2.IsWhole) (a3 : Memref sig .tc .vmem S1x1 .f32) (h3 : a3.IsWhole)
    (hc0 : cond0_0 i) (hc1 : ¬cond0_1 i) (x0 x1 : Vec F S1x3x1024 .f32) :
    out0_A_2 c i a1 h1 a2 h2 a3 h3 hc0 hc1 x0 x1 = pointOut x0 x1 zero11 := by
  unfold out0_A_2
  rw [View.read_writes_eq_canon _ _ _ (cover0_A_2 c i a1 h1 a2 h2 a3 h3 hc0 hc1 x0 x1)]
  unfold kernelRun0_A
  dsimp only
  sl_unfold_words
  rw [View.canon_cons_unit_zero (S := S1x1) hz2]
  simp only [View.readAt_eq_ld, h1.read_unread, h2.read_unread, View.ld_unit_zero (S := S1x3x1024) hz3,
    View.readCov_unit_zero (S := S1x1) _ hz2]
  rfl

/-- The last point: the running value plus the increment, over the number of batches. -/
theorem out_C (c : Dev nD) (i : grid0.Coords) (a1 : Memref sig .tc .vmem S1x3x1024 .f32) (h1 : a1.IsWhole)
    (a2 : Memref sig .tc .vmem S1x3x1024 .f32) (h2 : a2.IsWhole) (a3 : Memref sig .tc .vmem S1x1 .f32) (h3 : a3.IsWhole)
    (hc0 : ¬cond0_0 i) (hc1 : cond0_1 i) (x0 x1 : Vec F S1x3x1024 .f32) (xo2 : Vec F S1x1 .f32) :
    out0_C_2 c i a1 h1 a2 h2 a3 h3 hc0 hc1 x0 x1 xo2 = closeOut (pointOut x0 x1 xo2) := by
  unfold out0_C_2
  rw [View.read_writes_eq_canon _ _ _ (cover0_C_2 c i a1 h1 a2 h2 a3 h3 hc0 hc1 x0 x1 xo2)]
  unfold kernelRun0_C
  dsimp only
  sl_unfold_words
  rw [View.canon_cons_unit_zero (S := S1x1) hz2]
  simp only [View.readAt_eq_ld, h1.read_unread, h2.read_unread, h3.read_unread, View.ld_unit_zero (S := S1x3x1024) hz3,
    View.ld_unit_zero (S := S1x1) hz2, View.readCov_unit_zero (S := S1x1) _ hz2]
  rfl

end Cert.KernelIdeal.Hand

end
-- ==== Proof.KernelValue.lean ====
/-
  The kernel's result at the ideal values.

  The output's 1 × 1 block is never written back before the last grid point, so what its staging buffer holds after
  point `n` is, by induction on `n`, the sum of the values of batches `0 … n` (the first point starts from zero), and
  after the last point that sum over the number of batches. The one write-back puts it into the result array, which
  the closing reshape reads as a scalar. Point `b` finds, as its two input blocks, the coordinate matrices of batch
  `b` of the two transposed arguments: entry `(0, c, l)` of the block is the argument at `(b, l, c)`.
-/
import proofs.«164291_j31954556682741_1_alg».proof.Proof.Pieces
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen
open Cert.Spec (Cloud)

variable (m : (ℓ : Loc nD τ sig) → Buf (Elt Ideal) ℓ) (ρ : Dev nD → PrngReg)

/-- The two input blocks at a grid point, at their literal type. -/
abbrev pblk (c : Dev nD) (t : Fin cfg0.N) : Vec Ideal S1x3x1024 .f32 := iblk m c 0 t
abbrev gblk (c : Dev nD) (t : Fin cfg0.N) : Vec Ideal S1x3x1024 .f32 := iblk m c 1 t

/-- The value of the batch at grid point `n` (nothing past the grid). -/
def inc (c : Dev nD) (n : ℕ) : EReal :=
  if h : n < cfg0.N then Spec.perBatch (cloudOf (pblk m c ⟨n, h⟩)) (cloudOf (gblk m c ⟨n, h⟩)) else 0

/-- The sum of the first `n` batch values. -/
def partialSum (c : Dev nD) (n : ℕ) : EReal := ∑ k ∈ Finset.range n, inc m c k

/-- Before the last point the staging buffer holds the sum of the batch values so far. -/
theorem outsAt_partial (c : Dev nD) : ∀ (n : ℕ) (h : n < cfg0.N), n < 31 → outsAt0 m c n h = fun _ => partialSum m c (n + 1)
  | 0, h, _ => by
    refine (outsAt0_A m c ⟨0, h⟩ rfl (by dsimp only; decide)).trans ((out_A ..).trans ?_)
    funext j
    refine (pointOut_apply (pblk m c ⟨0, h⟩) (gblk m c ⟨0, h⟩) _ j).trans ?_
    show Ideal.ofBits .f32 0x00000000#32 + _ = _
    rw [Ideal.ofBits_zero_f32, zero_add]
    unfold partialSum
    rw [Finset.sum_range_one]
    unfold inc
    rw [dif_pos h]
  | n + 1, h, hn => by
    have hN : cfg0.N = 32 := N_0
    have h0 : ¬(⟨n + 1, h⟩ : Fin cfg0.N).val % 32 = 0 := by dsimp only; omega
    have h1 : ¬(⟨n + 1, h⟩ : Fin cfg0.N).val % 32 = 31 := by dsimp only; omega
    refine (outsAt0_B m c ⟨n + 1, h⟩ h0 h1).trans ((out_B ..).trans ?_)
    funext j
    refine (pointOut_apply (pblk m c ⟨n + 1, h⟩) (gblk m c ⟨n + 1, h⟩) _ j).trans ?_
    show outsAt0 m c n _ j + _ = _
    rw [outsAt_partial c n (Nat.lt_of_succ_lt h) (by omega)]
    unfold partialSum
    rw [Finset.sum_range_succ _ (n + 1)]
    congr 1
    unfold inc
    rw [dif_pos h]

/-- The kernel's scalar: the sum of the 32 batch values over 32. -/
def total (c : Dev nD) : EReal := Ideal.div (partialSum m c 32) Spec.batches

/-- After the last point the staging buffer holds the total. -/
theorem outsAt_last (c : Dev nD) (h : 31 < cfg0.N) : outsAt0 m c 31 h = fun _ => total m c := by
  have h0 : ¬(⟨31, h⟩ : Fin cfg0.N).val % 32 = 0 := by dsimp only; decide
  have h1 : (⟨31, h⟩ : Fin cfg0.N).val % 32 = 31 := by dsimp only
  refine (outsAt0_C m c ⟨31, h⟩ h0 h1).trans ((out_C ..).trans ?_)
  funext j
  refine (closeOut_apply _ j).trans ?_
  refine congrArg (Ideal.div · Spec.batches) ?_
  refine (pointOut_apply (pblk m c ⟨31, h⟩) (gblk m c ⟨31, h⟩) _ j).trans ?_
  show outsAt0 m c 30 _ j + _ = _
  rw [outsAt_partial m c 30 (Nat.lt_of_succ_lt h) (by decide)]
  unfold partialSum
  rw [Finset.sum_range_succ _ 31]
  congr 1

/-- The last grid point. -/
abbrev tLast : Fin cfg0.N := ⟨31, by rw [show cfg0.N = 32 from N_0]; decide⟩

/-- The result array's contents: the total at its one index. -/
abbrev result (c : Dev nD) : Buf (Elt Ideal) ((c : Thread nD τ).loc main_v2) := fun _ => total m c

/-- The one write-back, at the last point, writes the total. -/
theorem flushed_eq (c : Dev nD) (t : Fin cfg0.N) (hf : (cfg0.win 2).flush t = true) :
    (dats m 0 c).flushed 2 t = ((cfg0.win 2).blk t).view.read (Elt Ideal) (result m c) := by
  have hN : cfg0.N = 32 := N_0
  have h31 : t.val = 31 := by have := (flush0_2 t).mp hf; have := t.isLt; omega
  obtain rfl : t = tLast := Fin.ext h31
  show (cfg0.win 2).cut (grid0.coords tLast) ((dats m 0 c).after 2 tLast) = _
  rw [after0_2, outsAt_last]
  rfl

/-- So the result array ends holding the total. -/
theorem final_o (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v2).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The closing reshape reads the result array's one entry as the scalar. -/
theorem tail_eq (c : Dev nD) :
    Pipeline.afterTail₀ cfgs (dats m) 0 (V0 m) [hostOps1] c main_v3 = fun _ => total m c := by
  unfold Pipeline.afterTail₀
  show StableHlo.after hostOps1 _ (Proc.devRef .tc main_v3) = _
  after_results
  funext i
  show shapeCast S_ (Pipeline.withArrays spec0 c (V0 m c) (fun w => (dats m 0 c).arrAt w cfg0.N) (Proc.devRef .tc (Pipeline.arrRef spec0 2)))
    shapeCasts_S1x1_S_ i = _
  rw [(Pipeline.withArrays_arr spec0 launch0.win.arr_inj c _ _ 2).trans (final_o m c)]
  rfl

/-- On every core the kernel program ends with the total in its result scalar and its arguments as launched. -/
theorem run : θ_run defs (onTc (τ := τ) (main (F := Ideal))) ⟨m, fun _ => 0, ρ⟩ fun r => ∀ c : Dev nD,
      r.2.mem ((c.tc : Thread nD τ).loc main_v3) = (fun _ => total m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

/-! ## The blocks are the batches of the arguments -/

/-- Block `t` of either input window sits at batch `t`, whole along the other two axes. -/
theorem idx_facts0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
theorem idx_facts1 : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)

/-- The region finds the first window's array at the first argument with its last two axes swapped; -/
theorem V_v0 (c : Dev nD) : (V m c main_v0 : S32x3x1024.Idx → EReal)
    = transpose S32x3x1024 [0, 2, 1] (m ((c : Thread nD τ).loc main_arg0)) transposes_S32x1024x3_S32x3x1024_0_2_1 := by
  show StableHlo.after hostOps0 (fun b => m (c, b)) (Proc.devRef .tc main_v0) = _
  after_results
/-- and the second window's at the second argument likewise. -/
theorem V_v1 (c : Dev nD) : (V m c main_v1 : S32x3x1024.Idx → EReal)
    = transpose S32x3x1024 [0, 2, 1] (m ((c : Thread nD τ).loc main_arg1)) transposes_S32x1024x3_S32x3x1024_0_2_1 := by
  show StableHlo.after hostOps0 (fun b => m (c, b)) (Proc.devRef .tc main_v1) = _
  after_results

/-- A grid point as a batch number. -/
def batchOf (t : Fin cfg0.N) : Fin 32 := ⟨t.val, lt_of_lt_of_eq t.isLt (show cfg0.N = 32 from N_0)⟩

/-- Coordinate `cc` of point `l` in the first block at grid point `t` is the first argument at `(t, l, cc)`. -/
theorem pblk_apply (c : Dev nD) (t : Fin cfg0.N) (cc : Fin 3) (l : Fin 1024) :
    pblk m c t (ix3 (0 : Fin 1) cc l) = m ((c : Thread nD τ).loc main_arg0) (ix3 (batchOf t) l cc) := by
  have hi := idx_facts0 t
  unfold pblk iblk
  rw [View.read_apply]
  show V m c main_v0 _ = _
  rw [V_v0 m c]
  refine Eq.trans (congrArg _ (?_ : _ = ix3 (batchOf t) cc l)) (transpose_ix3_021_apply _ _ (batchOf t) cc l)
  funext a
  apply Fin.ext
  match a with
  | ⟨0, _⟩ => show win0_0.index t 0 * 1 + 1 * 0 = t.val; rw [hi.1]; omega
  | ⟨1, _⟩ => show win0_0.index t 1 * 3 + 1 * cc.val = cc.val; rw [hi.2.1]; omega
  | ⟨2, _⟩ => show win0_0.index t 2 * 1024 + 1 * l.val = l.val; rw [hi.2.2]; omega

theorem gblk_apply (c : Dev nD) (t : Fin cfg0.N) (cc : Fin 3) (l : Fin 1024) :
    gblk m c t (ix3 (0 : Fin 1) cc l) = m ((c : Thread nD τ).loc main_arg1) (ix3 (batchOf t) l cc) := by
  have hi := idx_facts1 t
  unfold gblk iblk
  rw [View.read_apply]
  show V m c main_v1 _ = _
  rw [V_v1 m c]
  refine Eq.trans (congrArg _ (?_ : _ = ix3 (batchOf t) cc l)) (transpose_ix3_021_apply _ _ (batchOf t) cc l)
  funext a
  apply Fin.ext
  match a with
  | ⟨0, _⟩ => show win0_1.index t 0 * 1 + 1 * 0 = t.val; rw [hi.1]; omega
  | ⟨1, _⟩ => show win0_1.index t 1 * 3 + 1 * cc.val = cc.val; rw [hi.2.1]; omega
  | ⟨2, _⟩ => show win0_1.index t 2 * 1024 + 1 * l.val = l.val; rw [hi.2.2]; omega

/-- So the kernel's scalar is the loss of the two arguments. -/
theorem total_eq (c : Dev nD) :
    total m c = Spec.loss (Spec.batchCloud (m ((c : Thread nD τ).loc main_arg0))) (Spec.batchCloud (m ((c : Thread nD τ).loc main_arg1))) := by
  unfold total Spec.loss partialSum
  refine congrArg (Ideal.div · Spec.batches) ?_
  rw [← Fin.sum_univ_eq_sum_range (fun k => inc m c k) 32]
  refine Finset.sum_congr rfl fun b _ => ?_
  have hb : b.val < cfg0.N := lt_of_lt_of_eq b.isLt (show cfg0.N = 32 from N_0).symm
  unfold inc
  rw [dif_pos hb]
  have e0 : cloudOf (pblk m c ⟨b.val, hb⟩) = Spec.batchCloud (m ((c : Thread nD τ).loc main_arg0)) b :=
    funext fun cc => funext fun l => pblk_apply m c ⟨b.val, hb⟩ cc l
  have e1 : cloudOf (gblk m c ⟨b.val, hb⟩) = Spec.batchCloud (m ((c : Thread nD τ).loc main_arg1)) b :=
    funext fun cc => funext fun l => gblk_apply m c ⟨b.val, hb⟩ cc l
  rw [e0, e1]

end Cert.KernelIdeal.Hand

end
-- ==== Proof.RefValue.lean ====
/-
  The reference's result at the ideal values.

  The reference forms, per cloud, all coordinate differences `x (b, i, c) − x (b, j, c)`, squares them, sums over the
  three coordinates, adds ε and takes the square root: `Spec.dist`. Its mask is "not a NaN and off the diagonal"; on the
  extended reals nothing differs from itself, so the mask is the off-diagonal one, and its count per batch is
  1024 · 1023, the very constant the kernel divides by. The masked absolute differences are summed over both point
  axes at once; the indices of one batch are the pairs `(i, j)`, so that sum is `Spec.batchSum`. The rest is the same
  three divisions and the sum over the batches.
-/
import proofs.«164291_j31954556682741_1_alg».proof.Proof.Gen.ReferenceIdeal.Read
import proofs.«164291_j31954556682741_1_alg».proof.Proof.Spec
import Idealize.ShloMosaic.Lib.StableHlo.Predicate
import Idealize.ShloMosaic.Lib.ValueIdx

noncomputable section

open Idealize.ShloMosaic Idealize.ShloMosaic.ValueIdx

namespace Cert.ReferenceIdeal.RefValue

open Cert.ReferenceIdeal Cert.ReferenceIdeal.Gen Cert.ReferenceIdeal.Read

/-- An argument array: 32 clouds of 1024 points. -/
abbrev Pts := S32x1024x3.Idx → EReal

/-- The second cloud's distances are computed by the same operations as the first's. -/
theorem v19_eq_v9 (x : Pts) : val_main_v19 (F := Ideal) x = val_main_v9 (F := Ideal) x := rfl

/-- Entry `(b, i, j)` of the distance array is the smoothed distance of points `i`, `j` of batch `b`. -/
theorem dist_apply (x : Pts) (b : Fin 32) (i j : Fin 1024) :
    val_main_v9 (F := Ideal) x (ix3 b i j) = Spec.dist (Spec.batchCloud x b) i j := by
  have e : ∀ k : Fin 3, idx_main_v0 (idx_main_v2 (idx_main_v6 (ix3 b i j) k)) = ix3 b i k :=
    fun k => funext fun a => Fin.ext (by match a with | ⟨0, _⟩ => rfl | ⟨1, _⟩ => rfl | ⟨2, _⟩ => rfl)
  have e' : ∀ k : Fin 3, idx_main_v1 (idx_main_v3 (idx_main_v6 (ix3 b i j) k)) = ix3 b j k :=
    fun k => funext fun a => Fin.ext (by match a with | ⟨0, _⟩ => rfl | ⟨1, _⟩ => rfl | ⟨2, _⟩ => rfl)
  rw [val_main_v9_apply, val_main_v8_apply, val_main_v6_apply, val_main_v7_apply, Fin.sum_univ_three]
  simp only [val_main_v5_apply, val_main_v4_apply, val_main_v2_apply, val_main_v3_apply, val_main_v0_apply, val_main_v1_apply,
    val_main_cst_apply, val_main_cst_0_apply, e, e']
  show Ideal.sqrt ((Ideal.ofBits .f32 0x00000000#32 + _) + _) = _
  rw [Ideal.ofBits_zero_f32, zero_add]
  rfl

/-- Both negations and the conjunction, on one-bit words: with the first operand never set, what is left is "not `c`". -/
theorem not_and_not (c : BitVec 1) : IntOp.andi (~~~(0#1 : BitVec 1)) (~~~c) = 1#1 ↔ ¬c = 1#1 := by
  rcases BitVec.eq_zero_or_eq_one c with rfl | rfl <;> decide

/-- The reference's mask is set at `(b, i, j)` exactly off the diagonal: no extended real differs from itself. -/
theorem mask_apply (x : Pts) (b : Fin 32) (i j : Fin 1024) : val_main_v30 (F := Ideal) x (ix3 b i j) = 1#1 ↔ i ≠ j := by
  have hi := i.isLt
  have hj := j.isLt
  rw [val_main_v30_apply, val_main_v26_apply, val_main_v25_apply, val_main_v29_apply, val_main_v28_apply, val_main_v27_apply,
    val_main_v24_apply, val_main_v23_apply, val_main_v20_apply, val_main_v21_apply, val_main_v22_apply, val_main_c_apply]
  have hself : FloatOps.cmpf (F := Ideal) (φ := .f32) .une (val_main_v19 (F := Ideal) x (ix3 b i j)) (val_main_v19 (F := Ideal) x (ix3 b i j)) = 0#1 := by
    show Ideal.cmp .une _ _ = 0#1
    simp [Ideal.cmp]
  rw [hself]
  show IntOp.andi (~~~(0#1 : BitVec 1)) (~~~(IntOp.cmpi .eq (BitVec.ofNat 32 i.val + 0#32) (BitVec.ofNat 32 j.val))) = 1#1 ↔ _
  rw [BitVec.add_zero, not_and_not, Spec.word_eq_iff _ _ (by omega) (by omega)]
  exact ⟨fun h e => h (congrArg Fin.val e), fun h e => h (Fin.ext e)⟩

/-- Entry `(b, i, j)` of the masked array is the pair's summand. -/
theorem term_apply (x0 x1 : Pts) (b : Fin 32) (i j : Fin 1024) :
    val_main_v33 (F := Ideal) x0 x1 (ix3 b i j) = Spec.term (Spec.batchCloud x0 b) (Spec.batchCloud x1 b) i j := by
  rw [val_main_v33_apply, val_main_v32_apply, val_main_v31_apply, val_main_call0_v1_apply, val_main_call0_v0_apply,
    val_main_cst_3_apply, v19_eq_v9, dist_apply, dist_apply]
  exact Spec.select_mask _ _ i j _ (mask_apply x1 b i j)

/-- The indices of the [32, 1024, 1024] array that reduce to batch `j` are the pairs `(r, l)` of that batch. -/
theorem sum_pairs {M : Type} [AddCommMonoid M] (f : S32x1024x1024.Idx → M) (j : S32.Idx) :
    ∑ i ∈ Finset.univ.filter (fun i : S32x1024x1024.Idx => reducesTo_S32x1024x1024_S32_d1_2.drop i = j), f i
      = ∑ r : Fin 1024, ∑ l : Fin 1024, f (ix3 (j 0) r l) := by
  have hdrop : ∀ i : S32x1024x1024.Idx, reducesTo_S32x1024x1024_S32_d1_2.drop i = j ↔ i 0 = j 0 := by
    intro i
    have hv : (reducesTo_S32x1024x1024_S32_d1_2.drop i 0 : Nat) = i 0 := Shape.ReducesTo.drop_apply_val _ i 0
    constructor
    · intro e; rw [e] at hv; exact Fin.ext hv.symm
    · intro e; funext b; have hb : b = 0 := Subsingleton.elim _ _; subst hb; exact Fin.ext (by rw [hv, e])
  have hback : ∀ i : S32x1024x1024.Idx, i 0 = j 0 → ix3 (j 0) (i 1) (i 2) = i := fun i h0 => by
    funext a
    match a with
    | ⟨0, _⟩ => exact h0.symm
    | ⟨1, _⟩ => rfl
    | ⟨2, _⟩ => rfl
  refine Eq.trans ?_ (Fintype.sum_prod_type' (fun (r l : Fin 1024) => f (ix3 (j 0) r l)))
  refine Finset.sum_bij' (fun i _ => (i 1, i 2)) (fun p _ => ix3 (j 0) p.1 p.2) (fun _ _ => Finset.mem_univ _)
    (fun p _ => Finset.mem_filter.2 ⟨Finset.mem_univ _, (hdrop _).2 rfl⟩)
    (fun i hi => hback i ((hdrop i).1 (Finset.mem_filter.1 hi).2)) (fun _ _ => rfl) ?_
  intro i hi
  exact (congrArg f (hback i ((hdrop i).1 (Finset.mem_filter.1 hi).2))).symm

/-- The mask's count per batch: every pair but the 1024 diagonal ones. -/
theorem count_apply (x : Pts) (j : S32.Idx) : val_main_v36 (F := Ideal) x j = 1047552#32 := by
  unfold val_main_v36
  rw [Host.reduce_eq_fold]
  apply BitVec.eq_of_toNat_eq
  have hval : ∀ i, (val_main_v35 (F := Ideal) x i).toNat = if val_main_v30 (F := Ideal) x i = 1#1 then 1 else 0 := fun i => by
    rw [val_main_v35_apply]; exact StableHlo.Predicate.toNat_setWidth_bit _
  have hrow : ∀ r : Fin 1024, ∑ l : Fin 1024, (if r ≠ l then 1 else 0 : ℕ) = 1023 := fun r => by
    rw [Finset.sum_boole, Finset.filter_ne, Finset.card_erase_of_mem (Finset.mem_univ _), Finset.card_univ, Fintype.card_fin]
    rfl
  have hsum : ∑ i ∈ Finset.univ.filter (fun i : S32x1024x1024.Idx => reducesTo_S32x1024x1024_S32_d1_2.drop i = j),
      (val_main_v35 (F := Ideal) x i).toNat = 1047552 := by
    rw [sum_pairs]
    have hterm : ∀ (r l : Fin 1024), (val_main_v35 (F := Ideal) x (ix3 (j 0) r l)).toNat = if r ≠ l then 1 else 0 := fun r l => by
      rw [hval]
      exact if_congr (mask_apply x (j 0) r l) rfl rfl
    simp only [hterm, hrow, Finset.sum_const, Finset.card_univ, Fintype.card_fin, smul_eq_mul, Nat.reduceMul]
  show (Finset.fold IntOp.addi 0#32 (val_main_v35 (F := Ideal) x)
    (Finset.univ.filter fun i : S32x1024x1024.Idx => reducesTo_S32x1024x1024_S32_d1_2.drop i = j)).toNat = _
  rw [StableHlo.Predicate.toNat_fold_addi _ _ (by rw [hsum]; norm_num), hsum]
  rfl

/-- So the divisor is the number of off-diagonal pairs. -/
theorem den_apply (x : Pts) (j : S32.Idx) : val_main_v37 (F := Ideal) x j = Spec.pairs := by
  rw [val_main_v37_apply, count_apply, Spec.pairs_eq]
  show (((1047552#32 : BitVec 32).toInt : ℝ) : EReal) = _
  have : (1047552#32 : BitVec 32).toInt = 1047552 := by decide
  rw [this]
  norm_num

/-- A batch's masked sum over both point axes is the sum over its ordered pairs. -/
theorem batchSum_apply (x0 x1 : Pts) (j : S32.Idx) :
    val_main_v34 (F := Ideal) x0 x1 j = Spec.batchSum (Spec.batchCloud x0 (j 0)) (Spec.batchCloud x1 (j 0)) := by
  unfold val_main_v34
  simp only [Host.reduceAdd, Ideal.hostReduceAdd_def]
  unfold Ideal.hostReduceAdd
  rw [sum_pairs]
  show Ideal.ofBits .f32 0x00000000#32 + _ = _
  rw [Ideal.ofBits_zero_f32, zero_add]
  unfold Spec.batchSum
  exact Finset.sum_congr rfl fun r _ => Finset.sum_congr rfl fun l _ => term_apply x0 x1 (j 0) r l

/-- A batch's value. -/
theorem batch_apply (x0 x1 : Pts) (j : S32.Idx) :
    val_main_v40 (F := Ideal) x0 x1 j = Spec.perBatch (Spec.batchCloud x0 (j 0)) (Spec.batchCloud x1 (j 0)) := by
  rw [val_main_v40_apply, val_main_v38_apply, val_main_v39_apply, val_main_cst_6_apply, den_apply, batchSum_apply]
  rfl

/-- A rank-one index of extent 32 is its one coordinate. -/
def idx1Equiv : S32.Idx ≃ Fin 32 := ⟨fun j => j 0, fun b => ix1 b, fun j => (eq_ix1 j).symm, fun _ => rfl⟩

/-- The reference's scalar is the loss of its two arguments. -/
theorem result_eq (x0 x1 : Pts) (i : S_.Idx) :
    val_main_v42 (F := Ideal) x0 x1 i = Spec.loss (Spec.batchCloud x0) (Spec.batchCloud x1) := by
  rw [val_main_v42_apply, val_main_v41_apply, val_main_cst_8_apply, val_main_cst_7_apply]
  show Ideal.div (Ideal.ofBits .f32 0x00000000#32 + ∑ j : S32.Idx, val_main_v40 (F := Ideal) x0 x1 j) (Ideal.ofBits .f32 0x42000000#32) = _
  rw [Ideal.ofBits_zero_f32, zero_add]
  unfold Spec.loss
  refine congrArg (Ideal.div · Spec.batches) ?_
  simp only [batch_apply]
  exact Fintype.sum_equiv idx1Equiv _ _ (fun _ => rfl)

end Cert.ReferenceIdeal.RefValue

end
-- ==== Proof.lean ====
/-
  The pairwise-distance loss: a gridded kernel over the 32 batches against the plain array program.

  Both programs compute, for two arrays of 32 clouds of 1024 points in space, the mean over the batches of
  `(Σ_{i ≠ j} |dist p i j − dist q i j|) / (1024 · 1023) / 10` with `dist p i j = √(|p i − p j|² + ε)` (`Spec.loss`).
  The kernel visits one batch per grid point, walks the rows `i` in four quarters of 256, sums each quarter along `j`
  and then along `i`, and carries the running sum of the batch values in its one output block, which it divides by 32 at
  the last point and writes back once (`KernelValue`). The reference forms all pairs of all batches at once, masks the
  diagonal (and what differs from itself: nothing, on the extended reals), counts the mask to get the divisor, and
  reduces over both point axes in one sum (`RefValue`). The two agree because a sum over 1024 rows is the sum of its
  four quarters and because the counted divisor is the literal the kernel spells; only commutativity and associativity
  of `+` on the extended reals are used, so the inputs' finiteness is never needed. The ideal pass rewrote nothing, so
  the preservation claim is trivial; the kernels' frames are the generated ones and the reference's frame is its
  generated run with the result dropped.
-/
import proofs.«164291_j31954556682741_1_alg».proof.Defs
import proofs.«164291_j31954556682741_1_alg».proof.Proof.Gen.Kernel
import proofs.«164291_j31954556682741_1_alg».proof.Proof.Gen.Kernel.Skeleton
import proofs.«164291_j31954556682741_1_alg».proof.Proof.Gen.Kernel.Launch
import proofs.«164291_j31954556682741_1_alg».proof.Proof.Gen.Kernel.Points
import proofs.«164291_j31954556682741_1_alg».proof.Proof.Gen.Kernel.Frame
import proofs.«164291_j31954556682741_1_alg».proof.Proof.Gen.KernelIdeal
import proofs.«164291_j31954556682741_1_alg».proof.Proof.Gen.KernelIdeal.Skeleton
import proofs.«164291_j31954556682741_1_alg».proof.Proof.Gen.KernelIdeal.Launch
import proofs.«164291_j31954556682741_1_alg».proof.Proof.Gen.KernelIdeal.Points
import proofs.«164291_j31954556682741_1_alg».proof.Proof.Gen.KernelIdeal.Frame
import proofs.«164291_j31954556682741_1_alg».proof.Proof.Gen.ReferenceIdeal
import proofs.«164291_j31954556682741_1_alg».proof.Proof.Gen.Pre_finite_inputs
import proofs.«164291_j31954556682741_1_alg».proof.Proof.Gen.ReferenceIdeal.Run
import proofs.«164291_j31954556682741_1_alg».proof.Proof.Gen.ReferenceIdeal.Read
import proofs.«164291_j31954556682741_1_alg».proof.Proof.KernelValue
import proofs.«164291_j31954556682741_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the loss of the (agreeing) arguments in their result scalar. -/
theorem algebraic : Cert.algebraic_KernelIdeal_ReferenceIdeal := by
  intro m ρ m' ρ' _ hagree
  refine ⟨fun c _ => Cert.KernelIdeal.Hand.total m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq]
  funext i
  rw [Cert.ReferenceIdeal.RefValue.result_eq, (hagree c).1, (hagree c).2]
  exact (Cert.KernelIdeal.Hand.total_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
